-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S256x256 : Shape := ⟨2, ![256, 256]⟩
abbrev S256 : Shape := ⟨1, ![256]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x4096x256 .f32) (main_arg1 : FVec F S256x256 .f32) (main_arg2 : FVec F S256 .f32) (main_arg3 : FVec F S256x256 .f32) (main_arg4 : FVec F S256 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S16x4096x256 : Shape := ⟨3, ![16, 4096, 256]⟩
abbrev S256x256 : Shape := ⟨2, ![256, 256]⟩
abbrev S256 : Shape := ⟨1, ![256]⟩
abbrev S1x256 : Shape := ⟨2, ![1, 256]⟩
abbrev S65536x256 : Shape := ⟨2, ![65536, 256]⟩
abbrev S1024x256 : Shape := ⟨2, ![1024, 256]⟩
abbrev S16x1x256 : Shape := ⟨3, ![16, 1, 256]⟩
abbrev S16x256 : Shape := ⟨2, ![16, 256]⟩

abbrev nBuf : Space → Nat
  | .hbm => 15
  | .vmem => 6
  | .smem => 0
  | _ => 0

abbrev bufTy : (tb : Table) → Fin (tcTables nBuf tb) → BufTy
  | .hbm, ⟨0, _⟩ => ⟨S16x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256x256, .bf16⟩
  | .hbm, ⟨8, _⟩ => ⟨S256, .f32⟩
  | .hbm, ⟨9, _⟩ => ⟨S1x256, .f32⟩
  | .hbm, ⟨10, _⟩ => ⟨S65536x256, .f32⟩
  | .hbm, ⟨11, _⟩ => ⟨S65536x256, .f32⟩
  | .hbm, ⟨12, _⟩ => ⟨S16x4096x256, .f32⟩
  | .hbm, ⟨13, _⟩ => ⟨S16x1x256, .f32⟩
  | .hbm, ⟨14, _⟩ => ⟨S16x256, .f32⟩
  | .local _ .vmem, ⟨0, _⟩ => ⟨S1024x256, .f32⟩
  | .local _ .vmem, ⟨1, _⟩ => ⟨S1024x256, .f32⟩
  | .local _ .vmem, ⟨2, _⟩ => ⟨S256x256, .bf16⟩
  | .local _ .vmem, ⟨3, _⟩ => ⟨S1x256, .f32⟩
  | .local _ .vmem, ⟨4, _⟩ => ⟨S1024x256, .f32⟩
  | .local _ .vmem, ⟨5, _⟩ => ⟨S1024x256, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  shapeCasts_S16x4096x256_S65536x256 : S16x4096x256.ShapeCasts S65536x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S65536x256_S16x4096x256 : S65536x256.ShapeCasts S16x4096x256
  slices_S16x4096x256_S16x1x256_0_4095_0 : S16x4096x256.Slices ![0, 4095, 0] S16x1x256
  shapeCasts_S16x1x256_S16x256 : S16x1x256.ShapeCasts S16x256
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S256x256 : Shape := ⟨2, ![256, 256]⟩
abbrev S256 : Shape := ⟨1, ![256]⟩
abbrev S1x1x256 : Shape := ⟨3, ![1, 1, 256]⟩
abbrev S16x1x256 : Shape := ⟨3, ![16, 1, 256]⟩
abbrev S16x256 : Shape := ⟨2, ![16, 256]⟩

abbrev nBuf : Space → Nat
  | .hbm => 17
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S16x4096x256, .f32⟩
  | .hbm, ⟨6, _⟩ => ⟨S1x1x256, .f32⟩
  | .hbm, ⟨7, _⟩ => ⟨S16x4096x256, .f32⟩
  | .hbm, ⟨8, _⟩ => ⟨S16x4096x256, .f32⟩
  | .hbm, ⟨9, _⟩ => ⟨S16x4096x256, .f32⟩
  | .hbm, ⟨10, _⟩ => ⟨S16x4096x256, .f32⟩
  | .hbm, ⟨11, _⟩ => ⟨S1x1x256, .f32⟩
  | .hbm, ⟨12, _⟩ => ⟨S16x4096x256, .f32⟩
  | .hbm, ⟨13, _⟩ => ⟨S16x4096x256, .f32⟩
  | .hbm, ⟨14, _⟩ => ⟨S16x4096x256, .f32⟩
  | .hbm, ⟨15, _⟩ => ⟨S16x1x256, .f32⟩
  | .hbm, ⟨16, _⟩ => ⟨S16x256, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x4096x256_0_1_2 : S1x1x256.BroadcastsInDim S16x4096x256 (![0, 1, 2] : Fin 3 → Fin S16x4096x256.rank)
  slices_S16x4096x256_S16x1x256_0_4095_0 : S16x4096x256.Slices ![0, 4095, 0] S16x1x256
  shapeCasts_S16x1x256_S16x256 : S16x1x256.ShapeCasts S16x256
  dot_S16x4096x256_S256x256_S16x4096x256_2_1_01_0_n_n_wf : DotDims.WF S16x4096x256 S256x256 S16x4096x256 [2] [1] [0, 1] [0] [] []

variable [Facts₀]

def dot_S16x4096x256_S256x256_S16x4096x256_2_1_01_0_n_n : DotDims S16x4096x256 S256x256 S16x4096x256 where
  lhsContracting := [2]
  rhsContracting := [1]
  lhsNonContracting := [0, 1]
  rhsNonContracting := [0]
  lhsBatch := []
  rhsBatch := []
  wf := dot_S16x4096x256_S256x256_S16x4096x256_2_1_01_0_n_n_wf

class Facts : Prop extends Facts₀ where

variable [Facts]
-- ==== Proof.BodyAt.lean ====
/-
  What the kernel body stores, read at one entry of its block.

  The body loads a block of rows `x0` (1024 × 256), the whole weight block `x1` (256 × 256) and the bias row `x2`
  (1 × 256), and stores `tanh (x0 · x1 + x2)`, the bias row repeated down the rows. At the exact instance the narrowing
  of the rows to the short float format is the identity and the matrix unit's product into a zero accumulator is the
  plain sum over the contracted coordinate, so at row `p` and column `q` the stored entry is
      tanh (∑ₖ x0[p, k] · x1[k, q] + x2[0, q]).
-/
import proofs.«113763_j1331439861945_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BodyAt

open Cert.KernelIdeal Cert.KernelIdeal.Gen Idealize.ShloMosaic Idealize.ShloMosaic.ValueIdx

/-! ## The product's operand indices, axis by axis -/

/-- The left operand is read on the output's row … -/
theorem lhs_row (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- … and on the contracted coordinate. -/
theorem lhs_contr (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- The right operand is read on the contracted coordinate … -/
theorem rhs_contr (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- … and on the output's column. -/
theorem rhs_col (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-! ## The product and the bias row at an entry -/

/-- The matrix unit's product into the zero accumulator, at row `p` and column `q`: the sum over the contracted
    coordinate of the row's entries times the column's. -/
theorem product_at (a : FVec Ideal S1024x256 .bf16) (w : FVec Ideal S256x256 .bf16) (p : Fin 1024) (q : Fin 256) :
    matmul (F := Ideal) dot_S1024x256_S256x256_S1024x256_1_0_0_1_n_n none a w (constant (F := Ideal) S1024x256 .f32 0x00000000#32) (ix2 p q)
      = ∑ k : Fin 256, a (ix2 p k) * w (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhs_row _ _
    | ⟨1, _⟩ => exact (lhs_contr _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhs_contr _ _).trans hk
    | ⟨1, _⟩ => exact rhs_col _ _)
  rw [el, er]

/-- The bias row repeated down the rows reads, at row `p` and column `q`, the row's entry at column `q`. -/
theorem bias_at (b : S1x256.Idx → EReal) (p : Fin 1024) (q : Fin 256) :
    broadcastTo S1024x256 b broadcasts_S1x256_S1024x256 (ix2 p q) = b (ix2 (0 : Fin 1) q) :=
  broadcastTo_apply b broadcasts_S1x256_S1024x256 (ix2 p q) (ix2 (0 : Fin 1) q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])

/-! ## The stored entry -/

/-- The body's stored value at row `p` and column `q`: the casts to the same shape drop out, the narrowing is the
    identity, and `tanh` and the sum read entry by entry. -/
theorem stored_at (x0 : Vec Ideal S1024x256 .f32) (x1 : Vec Ideal S256x256 .bf16) (x2 : Vec Ideal S1x256 .f32)
    (p : Fin 1024) (q : Fin 256) :
    k0_pay1 (F := Ideal) x0 x1 x2 (ix2 p q)
      = Ideal.tanh ((∑ k : Fin 256, x0 (ix2 p k) * x1 (ix2 k q)) + x2 (ix2 (0 : Fin 1) q)) := by
  unfold k0_pay1
  simp only [shapeCast_self]
  show Ideal.tanh (matmul (F := Ideal) dot_S1024x256_S256x256_S1024x256_1_0_0_1_n_n none (truncf .bf16 x0 bitsLt_bf16_f32) x1
        (constant (F := Ideal) S1024x256 .f32 0x00000000#32) (ix2 p q)
      + broadcastTo S1024x256 x2 broadcasts_S1x256_S1024x256 (ix2 p q)) = _
  rw [product_at, bias_at]
  rfl

end Cert.KernelIdeal.BodyAt

end
-- ==== Proof.EntryArrays.lean ====
/-
  The three arrays the region's input windows stage, as the host lines before the region leave them, each as a term of
  the program's arguments and then read at an entry.

  * the rows: the input `x` (16 × 4096 × 256) laid out as 65536 rows of 256, batch `b`, step `t` being row
    `b · 4096 + t`;
  * the weights: the sum of the two weight matrices, transposed (and narrowed, which is the identity at the exact
    instance): entry (k, q) is `Wi[q, k] + Wh[q, k]`;
  * the bias row: the sum of the two bias vectors as one row: entry (0, q) is `bi[q] + bh[q]`.
-/
import proofs.«113763_j1331439861945_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.EntryArrays

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The five argument arrays, at their literal types -/

/-- The input `x`. -/
abbrev xArg (c : Dev nD) : FVec Ideal S16x4096x256 .f32 := m ((c : Thread nD τ).loc main_arg0)
/-- The first weight matrix `Wi`. -/
abbrev wiArg (c : Dev nD) : FVec Ideal S256x256 .f32 := m ((c : Thread nD τ).loc main_arg1)
/-- The first bias vector `bi`. -/
abbrev biArg (c : Dev nD) : FVec Ideal S256 .f32 := m ((c : Thread nD τ).loc main_arg2)
/-- The second weight matrix `Wh`. -/
abbrev whArg (c : Dev nD) : FVec Ideal S256x256 .f32 := m ((c : Thread nD τ).loc main_arg3)
/-- The second bias vector `bh`. -/
abbrev bhArg (c : Dev nD) : FVec Ideal S256 .f32 := m ((c : Thread nD τ).loc main_arg4)

/-! ## As terms of the arguments -/

/-- The rows the first window stages: the input reshaped to 65536 × 256. -/
theorem rows_eq (c : Dev nD) :
    (V m c main_v5 : S65536x256.Idx → EReal)
      = shapeCast S65536x256 (xArg m c) shapeCasts_S16x4096x256_S65536x256 := by
  show StableHlo.after hostOps0 (fun b => m (c, b)) (Proc.devRef .tc main_v5) = _
  after_results <;> rfl

/-- The weights the second window stages: the two weight matrices added, transposed, narrowed. -/
theorem weights_eq (c : Dev nD) :
    (V m c main_v2 : S256x256.Idx → EReal)
      = truncf .bf16 (transpose S256x256 [1, 0] (addf (wiArg m c) (whArg m c)) transposes_S256x256_S256x256_1_0) bitsLt_bf16_f32 := by
  show StableHlo.after hostOps0 (fun b => m (c, b)) (Proc.devRef .tc main_v2) = _
  after_results <;> rfl

/-- The bias row the third window stages: the two bias vectors added, as one row. -/
theorem bias_eq (c : Dev nD) :
    (V m c main_v4 : S1x256.Idx → EReal)
      = shapeCast S1x256 (addf (biArg m c) (bhArg m c)) shapeCasts_S256_S1x256 := by
  show StableHlo.after hostOps0 (fun b => m (c, b)) (Proc.devRef .tc main_v4) = _
  after_results <;> rfl

/-! ## Read at an entry -/

/-- Row `b · 4096 + t`, column `k` of the rows is the input at batch `b`, step `t`, channel `k`: the two have the
    same row-major position. -/
theorem rows_at (c : Dev nD) (b : Fin 16) (t : Fin 4096) (k : Fin 256) :
    V m c main_v5 (ix2 (⟨b.val * 4096 + t.val, by have := b.isLt; have := t.isLt; omega⟩ : Fin 65536) k)
      = xArg m c (ix3 b t k) := by
  rw [rows_eq]
  exact shapeCast_apply _ shapeCasts_S16x4096x256_S65536x256 _ (ix3 b t k)
    (by rewrite [Shape.rowMajor_val_three, Shape.rowMajor_val_two]; rfl)

/-- Entry (k, q) of the weights is the sum of the two weight matrices at (q, k). -/
theorem weights_at (c : Dev nD) (k q : Fin 256) :
    V m c main_v2 (ix2 k q)
      = wiArg m c (ix2 q k) + whArg m c (ix2 q k) := by
  rw [weights_eq]
  refine (truncf_apply (transpose S256x256 [1, 0] (addf (wiArg m c) (whArg m c)) transposes_S256x256_S256x256_1_0)
    bitsLt_bf16_f32 (ix2 k q)).trans ?_
  exact transpose_apply [1, 0] (addf (wiArg m c) (whArg m c)) transposes_S256x256_S256x256_1_0 (ix2 k q) (ix2 q k) (fun b => match b with
    | ⟨0, _⟩ => rfl
    | ⟨1, _⟩ => rfl)

/-- Entry (0, q) of the bias row is the sum of the two bias vectors at `q`. -/
theorem bias_at (c : Dev nD) (q : Fin 256) :
    V m c main_v4 (ix2 (0 : Fin 1) q)
      = biArg m c (ix1 q) + bhArg m c (ix1 q) := by
  rw [bias_eq]
  exact shapeCast_apply _ shapeCasts_S256_S1x256 (ix2 (0 : Fin 1) q) (ix1 q)
    (by rewrite [Shape.rowMajor_val_one, Shape.rowMajor_val_two]
        show q.val = 0 * 256 + q.val
        omega)

end Cert.KernelIdeal.EntryArrays

end
-- ==== Proof.OutputArray.lean ====
/-
  The region's output array after the run, as one function of the three arrays its input windows stage.

  The grid has 64 points. Point `t` stages rows `1024·t … 1024·t + 1023` of the 65536 rows, the whole weight block and
  the whole bias row, and writes back rows `1024·t … 1024·t + 1023` of the output. So what point `t` writes back is
  block `t` of ONE function of the three arrays,
      flat X W B (r, q) = tanh (∑ₖ X[r, k] · W[k, q] + B[0, q]),
  the 64 blocks tile the 65536 rows, and the array after the run is that function.
-/
import proofs.«113763_j1331439861945_1_alg».proof.Proof.Gen.KernelIdeal.Frame
import proofs.«113763_j1331439861945_1_alg».proof.Proof.BodyAt
import proofs.«113763_j1331439861945_1_alg».proof.Proof.EntryArrays
import Idealize.ShloMosaic.Lib.Pipeline.Value
import Idealize.ShloMosaic.Lib.ValueIdx

set_option maxRecDepth 16384

noncomputable section

open scoped BigOperators

namespace Cert.KernelIdeal.OutputArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The function -/

/-- Rows times weights plus the bias row, through `tanh`, entry by entry. -/
def flat (X : FVec Ideal S65536x256 .f32) (W : FVec Ideal S256x256 .bf16) (B : FVec Ideal S1x256 .f32) :
    FVec Ideal S65536x256 .f32 :=
  fun i => Ideal.tanh ((∑ k : Fin 256, X (ix2 (i 0) k) * W (ix2 k (i 1))) + B (ix2 (0 : Fin 1) (i 1)))

/-- `flat` at row `r` and column `q`. -/
theorem flat_at (X : FVec Ideal S65536x256 .f32) (W : FVec Ideal S256x256 .bf16) (B : FVec Ideal S1x256 .f32)
    (r : Fin 65536) (q : Fin 256) :
    flat X W B (ix2 r q) = Ideal.tanh ((∑ k : Fin 256, X (ix2 r k) * W (ix2 k q)) + B (ix2 (0 : Fin 1) q)) := rfl

/-- The three staged arrays, at their literal types. -/
abbrev rows (c : Dev nD) : FVec Ideal S65536x256 .f32 := V m c main_v5
abbrev weights (c : Dev nD) : FVec Ideal S256x256 .bf16 := V m c main_v2
abbrev biasRow (c : Dev nD) : FVec Ideal S1x256 .f32 := V m c main_v4

/-- The body's stored entry is the function's, once the body's three loaded blocks are known to be the arrays' entries
    the function reads: the row's entries, the column's entries, the bias at the column. -/
theorem stored_is_flat (x0 : Vec Ideal S1024x256 .f32) (x1 : Vec Ideal S256x256 .bf16) (x2 : Vec Ideal S1x256 .f32)
    (X : FVec Ideal S65536x256 .f32) (W : FVec Ideal S256x256 .bf16) (B : FVec Ideal S1x256 .f32)
    (j : S1024x256.Idx) (i : S65536x256.Idx)
    (h0 : ∀ k : Fin 256, x0 (ix2 (j 0) k) = X (ix2 (i 0) k))
    (h1 : ∀ k : Fin 256, x1 (ix2 k (j 1)) = W (ix2 k (i 1)))
    (h2 : x2 (ix2 (0 : Fin 1) (j 1)) = B (ix2 (0 : Fin 1) (i 1))) :
    k0_pay1 (F := Ideal) x0 x1 x2 j = flat X W B i := by
  have h := BodyAt.stored_at x0 x1 x2 (j 0) (j 1)
  have hj : j = ix2 (j 0) (j 1) := eq_ix2 j
  rw [hj]
  refine h.trans ?_
  unfold flat
  simp only [h0, h1, h2]

/-! ## What a point writes back -/

theorem hz : (![0, 0] : Fin 2 → Nat) = fun _ => 0 := funext fun a => by fin_cases a <;> rfl

/-- The printed index maps over the grid: the rows' window moves with the output's, block `t` at point `t`; the
    weights' and the bias row's stay at block zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 63 :=
  (by decide +kernel : ∀ t : Fin grid0.N, _)

/-- WHAT POINT `t` WRITES BACK is block `t` of `flat` of the three staged arrays. -/
theorem flushed_eq (c : Dev nD) (t : Fin cfg0.N) :
    (dats m 0 c).flushed 3 t
      = ((cfg0.win 3).blk t).view.read (Elt Ideal) (flat (rows m c) (weights m c) (biasRow m c)) := by
  show (cfg0.win 3).cut (grid0.coords t) ((dats m 0 c).after 3 t) = _
  rw [after0_3]
  unfold out0_3
  rw [View.canon_unit_zero hz]
  simp only [View.ld_unit_zero (S := S1024x256) hz, View.ld_unit_zero (S := S256x256) hz, View.ld_unit_zero (S := S1x256) hz]
  obtain ⟨e0, e1, e2, e3, e4, e5, e6, e7⟩ := idx_facts t
  funext j
  show k0_pay1 (F := Ideal) (iblk m c 0 t) (iblk m c 1 t) (iblk m c 2 t) j
    = flat (rows m c) (weights m c) (biasRow m c) (((cfg0.win 3).blk t).view.emb j)
  refine stored_is_flat (iblk m c 0 t) (iblk m c 1 t) (iblk m c 2 t) (rows m c) (weights m c) (biasRow m c) j
    (((cfg0.win 3).blk t).view.emb j) ?_ ?_ ?_
  · -- the rows' block at point `t` starts at the row the output's block starts at
    intro k
    show rows m c (((cfg0.win 0).blk t).view.emb (ix2 (j 0) k)) = rows m c (ix2 (((cfg0.win 3).blk t).view.emb j 0) k)
    refine congrArg (rows m c) ?_
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 256 + 1 * k.val = k.val; omega
  · -- the weights' block is the whole array; the output's block starts at column zero
    intro k
    show weights m c (((cfg0.win 1).blk t).view.emb (ix2 k (j 1))) = weights m c (ix2 k (((cfg0.win 3).blk t).view.emb j 1))
    refine congrArg (weights m c) ?_
    funext a; apply Fin.ext
    match a with
    | ⟨0, _⟩ => show win0_1.index t (0 : Fin 2) * 256 + 1 * k.val = k.val; omega
    | ⟨1, _⟩ => show win0_1.index t (1 : Fin 2) * 256 + 1 * (j 1).val = win0_3.index t (1 : Fin 2) * 256 + 1 * (j 1).val; omega
  · -- the bias row's block is the whole row
    show biasRow m c (((cfg0.win 2).blk t).view.emb (ix2 (0 : Fin 1) (j 1))) = biasRow m c (ix2 (0 : Fin 1) (((cfg0.win 3).blk t).view.emb j 1))
    refine congrArg (biasRow m c) ?_
    funext a; apply Fin.ext
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega

/-! ## The blocks tile the array -/

/-- An index of the output array is in point `t`'s block iff each coordinate is in the block's range on its axis. -/
theorem mem_blk (t : Fin cfg0.N) (i : S65536x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v6).slice (win0_3.rect t)).set ↔ _
  rw [View.set_slice_whole, Rect.mem_set_unit]
  exact Iff.rfl

/-- Every one of the 64 row blocks is some point's. -/
theorem idx_onto : ∀ b : Fin 64, ∃ t : Fin cfg0.N, win0_3.index t = ![b.val, 0] :=
  (by decide +kernel : ∀ b : Fin 64, ∃ t : Fin grid0.N, win0_3.index t = ![b.val, 0])

/-- Row `r` is written back by the point whose block index is `r / 1024`. -/
theorem cover (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-! ## The array after the run -/

/-- THE OUTPUT ARRAY after the run is `flat` of the three staged arrays. -/
theorem final (c : Dev nD) :
    (dats m 0 c).arrAt 3 cfg0.N = flat (rows m c) (weights m c) (biasRow m c) :=
  (dats m 0 c).arrAt_eq_of_cover 3 (flat (rows m c) (weights m c) (biasRow m c)) (fun t _ => flushed_eq m c t) cover

end Cert.KernelIdeal.OutputArray

end
-- ==== Proof.HostTail.lean ====
/-
  The host lines after the region, and with them the kernel program's two results.

  After the region its output array holds `flat` of the three staged arrays (65536 × 256). The lines after it lay
  that out as 16 × 4096 × 256 — the first result, the hidden states — and take the last step of every batch,
  `[:, 4095, :]`, as 16 × 256 — the second result.
-/
import proofs.«113763_j1331439861945_1_alg».proof.Proof.Gen.KernelIdeal.Frame
import proofs.«113763_j1331439861945_1_alg».proof.Proof.OutputArray
import Idealize.ShloMosaic.Lib.Pipeline.Value
import Idealize.ShloMosaic.Lib.ValueIdx
import Idealize.ShloMosaic.Lib.StableHlo.Run

set_option maxRecDepth 16384

noncomputable section

namespace Cert.KernelIdeal.HostTail

open Cert.KernelIdeal Cert.KernelIdeal.Gen Idealize.ShloMosaic Idealize.ShloMosaic.TcCoe Idealize.SL.Sem
open Idealize.ShloMosaic.ValueIdx Idealize.ShloMosaic.StableHlo
open Cert.KernelIdeal.OutputArray

variable (m : (ℓ : Loc nD τ sig) → Buf (Elt Ideal) ℓ)

/-- The region's output array as the lines after the region find it: the array after the run, which is `flat`. -/
theorem region_out (c : Dev nD) :
    Pipeline.withArrays (cfgs 0).spec c (V0 m c) (fun w => (dats m 0 c).arrAt w (cfgs 0).N) (Proc.devRef .tc main_v6)
      = flat (rows m c) (weights m c) (biasRow m c) :=
  (Pipeline.withArrays_arr spec0 launch0.win.arr_inj c (V0 m c) (fun w => (dats m 0 c).arrAt w cfg0.N) 3).trans (final m c)

/-- The tail's two operations on the hidden states, as one function: the slice at the last step and its reshape. -/
def lastStep (h : FVec Ideal S16x4096x256 .f32) : FVec Ideal S16x256 .f32 :=
  shapeCast S16x256 (extractStridedSlice S16x1x256 ![0, 4095, 0] h slices_S16x4096x256_S16x1x256_0_4095_0) shapeCasts_S16x1x256_S16x256

/-- The hidden states, in the kernel program's layout of them. -/
def hidden (c : Dev nD) : FVec Ideal S16x4096x256 .f32 :=
  shapeCast S16x4096x256 (flat (rows m c) (weights m c) (biasRow m c)) shapeCasts_S65536x256_S16x4096x256

/-- THE FIRST RESULT after the run. -/
theorem hidden_eq (c : Dev nD) :
    Pipeline.afterTail₀ cfgs (dats m) 0 (V0 m) [hostOps1] c main_v7 = hidden m c := by
  unfold Pipeline.afterTail₀
  show StableHlo.after hostOps1 _ (Proc.devRef .tc main_v7) = _
  after_results
  rw [region_out]
  rfl

/-- THE SECOND RESULT after the run: the last step of the first. -/
theorem last_eq (c : Dev nD) :
    Pipeline.afterTail₀ cfgs (dats m) 0 (V0 m) [hostOps1] c main_v9 = lastStep (hidden m c) := by
  unfold Pipeline.afterTail₀
  show StableHlo.after hostOps1 _ (Proc.devRef .tc main_v9) = _
  after_results
  rw [region_out]
  rfl

end Cert.KernelIdeal.HostTail

end
-- ==== Proof.ReferenceAt.lean ====
/-
  The reference's hidden states, read at one entry.

  The reference contracts the input with each weight matrix over the channel axis and adds each bias vector along the
  last axis, one after the other, then applies `tanh`:
      hidden[b, t, h] = tanh (((∑ₖ x[b, t, k] · Wi[h, k] + bi[h]) + ∑ₖ x[b, t, k] · Wh[h, k]) + bh[h]).
-/
import proofs.«113763_j1331439861945_1_alg».proof.Proof.Gen.ReferenceIdeal.Read
import Idealize.ShloMosaic.Lib.ValueIdx

noncomputable section

open scoped BigOperators

namespace Cert.ReferenceIdeal.RefAt

open Cert.ReferenceIdeal Cert.ReferenceIdeal.Gen Cert.ReferenceIdeal.Read Idealize.ShloMosaic Idealize.ShloMosaic.ValueIdx

/-- The hidden states at batch `b`, step `t`, unit `h`. -/
theorem hidden_at (x0 : FVec Ideal S16x4096x256 .f32) (x1 : FVec Ideal S256x256 .f32) (x2 : FVec Ideal S256 .f32)
    (x3 : FVec Ideal S256x256 .f32) (x4 : FVec Ideal S256 .f32) (b : Fin 16) (t : Fin 4096) (h : Fin 256) :
    val_main_v9 (F := Ideal) x0 x1 x2 x3 x4 (ix3 b t h)
      = Ideal.tanh ((((∑ k : Fin 256, x0 (ix3 b t k) * x1 (ix2 h k)) + x2 (ix1 h))
          + ∑ k : Fin 256, x0 (ix3 b t k) * x3 (ix2 h k)) + x4 (ix1 h)) := by
  have el : ∀ k : Fin 256, lidx_main_v0 (ix3 b t h) k = ix3 b t k := fun k => funext fun a => Fin.ext (by
    match a with | ⟨0, _⟩ => rfl | ⟨1, _⟩ => rfl | ⟨2, _⟩ => rfl)
  have er : ∀ k : Fin 256, ridx_main_v0 (ix3 b t h) k = ix2 h k := fun k => funext fun a => Fin.ext (by
    match a with | ⟨0, _⟩ => rfl | ⟨1, _⟩ => rfl)
  have el' : ∀ k : Fin 256, lidx_main_v4 (ix3 b t h) k = ix3 b t k := fun k => funext fun a => Fin.ext (by
    match a with | ⟨0, _⟩ => rfl | ⟨1, _⟩ => rfl | ⟨2, _⟩ => rfl)
  have er' : ∀ k : Fin 256, ridx_main_v4 (ix3 b t h) k = ix2 h k := fun k => funext fun a => Fin.ext (by
    match a with | ⟨0, _⟩ => rfl | ⟨1, _⟩ => rfl)
  have eb : idx_main_v1 (idx_main_v2 (ix3 b t h)) = ix1 h := funext fun a => Fin.ext (by
    match a with | ⟨0, _⟩ => rfl)
  have eb' : idx_main_v6 (idx_main_v7 (ix3 b t h)) = ix1 h := funext fun a => Fin.ext (by
    match a with | ⟨0, _⟩ => rfl)
  rw [val_main_v9_apply, val_main_v8_apply, val_main_v5_apply, val_main_v3_apply, val_main_v0_apply, val_main_v2_apply,
    val_main_v1_apply, val_main_v4_apply, val_main_v7_apply, val_main_v6_apply]
  simp only [el, er, el', er', eb, eb', Ideal.hostUnary_tanh_def, Ideal.addf_def]

end Cert.ReferenceIdeal.RefAt

end
-- ==== Proof.SumLaw.lean ====
/-
  The one arithmetic law that joins the two programs.

  The kernel adds the two weight matrices and the two bias vectors first and contracts once:
      ∑ₖ xₖ · (aₖ + bₖ) + (p + q).
  The reference contracts twice and adds the biases one at a time:
      ((∑ₖ xₖ · aₖ + p) + ∑ₖ xₖ · bₖ) + q.
  On the extended reals the product does not distribute over the sum at the infinities, so the law is stated
  where every entry is a real number; there it is distributivity, the sum of a sum, and reordering.
-/
import Idealize.ShloMosaic.PureOps.Ideal

open scoped BigOperators

namespace Cert.SumLaw

/-- The coercion of the reals into the extended reals commutes with a finite sum. -/
theorem coe_sum {K : Type} [Fintype K] (f : K → ℝ) : ((∑ k, f k : ℝ) : EReal) = ∑ k, (f k : EReal) := by
  classical
  induction (Finset.univ : Finset K) using Finset.induction_on with
  | empty => simp
  | insert a s ha ih => rw [Finset.sum_insert ha, Finset.sum_insert ha, EReal.coe_add, ih]

/-- One contraction against the summed weights plus the summed biases is the two contractions with the biases
    added one after the other, when every entry is real. -/
theorem fused_eq_split {K : Type} [Fintype K] (x a b : K → EReal) (p q : EReal)
    (hx : ∀ k, ∃ r : ℝ, x k = r) (ha : ∀ k, ∃ r : ℝ, a k = r) (hb : ∀ k, ∃ r : ℝ, b k = r)
    (hp : ∃ r : ℝ, p = r) (hq : ∃ r : ℝ, q = r) :
    (∑ k, x k * (a k + b k)) + (p + q) = (((∑ k, x k * a k) + p) + ∑ k, x k * b k) + q := by
  choose xr hxr using hx
  choose ar har using ha
  choose br hbr using hb
  obtain ⟨pr, rfl⟩ := hp
  obtain ⟨qr, rfl⟩ := hq
  simp only [hxr, har, hbr]
  simp only [← EReal.coe_add, ← EReal.coe_mul, ← coe_sum]
  rw [EReal.coe_eq_coe_iff]
  simp only [mul_add, Finset.sum_add_distrib]
  ring

end Cert.SumLaw
-- ==== Proof.Hidden.lean ====
/-
  The kernel program's hidden states are the reference's, and the kernel program's run with both results named.

  At batch `b`, step `t`, unit `h` the kernel program holds
      tanh (∑ₖ x[b, t, k] · (Wi[h, k] + Wh[h, k]) + (bi[h] + bh[h]))
  (row `b · 4096 + t` of the region's output, the weights transposed and added beforehand, the biases added beforehand),
  and the reference holds
      tanh (((∑ₖ x[b, t, k] · Wi[h, k] + bi[h]) + ∑ₖ x[b, t, k] · Wh[h, k]) + bh[h]).
  Where every entry of the five arguments is real the two arguments of `tanh` are equal (`SumLaw.fused_eq_split`).
-/
import proofs.«113763_j1331439861945_1_alg».proof.Proof.HostTail
import proofs.«113763_j1331439861945_1_alg».proof.Proof.ReferenceAt
import proofs.«113763_j1331439861945_1_alg».proof.Proof.SumLaw

set_option maxRecDepth 16384

noncomputable section

open scoped BigOperators

namespace Cert.KernelIdeal.Hidden

open Cert.KernelIdeal Cert.KernelIdeal.Gen Idealize.ShloMosaic Idealize.ShloMosaic.TcCoe Idealize.SL.Sem
open Idealize.ShloMosaic.ValueIdx
open Cert.KernelIdeal.EntryArrays Cert.KernelIdeal.OutputArray Cert.KernelIdeal.HostTail

variable (m : (ℓ : Loc nD τ sig) → Buf (Elt Ideal) ℓ)

/-- The kernel program's hidden states at batch `b`, step `t`, unit `h`, over the five arguments. -/
theorem hidden_at (c : Dev nD) (b : Fin 16) (t : Fin 4096) (h : Fin 256) :
    HostTail.hidden m c (ix3 b t h)
      = Ideal.tanh ((∑ k : Fin 256, xArg m c (ix3 b t k) * (wiArg m c (ix2 h k) + whArg m c (ix2 h k)))
          + (biArg m c (ix1 h) + bhArg m c (ix1 h))) := by
  have hL : HostTail.hidden m c (ix3 b t h)
      = flat (rows m c) (weights m c) (biasRow m c)
          (ix2 (⟨b.val * 4096 + t.val, by have := b.isLt; have := t.isLt; omega⟩ : Fin 65536) h) := by
    unfold HostTail.hidden
    exact shapeCast_apply _ shapeCasts_S65536x256_S16x4096x256 (ix3 b t h) _
      (by rewrite [Shape.rowMajor_val_two, Shape.rowMajor_val_three]; rfl)
  rw [hL, flat_at]
  refine congrArg Ideal.tanh ?_
  refine congrArg₂ (· + ·) (Finset.sum_congr rfl fun k _ => ?_) (bias_at m c h)
  exact congrArg₂ (· * ·) (rows_at m c b t k) (weights_at m c k h)

/-- THE BRIDGE: where every entry of the five arguments is real, the kernel program's hidden states are the
    reference's hidden states of the same arguments. -/
theorem hidden_is_reference (c : Dev nD)
    (f0 : ∀ i, ∃ r : ℝ, xArg m c i = r) (f1 : ∀ i, ∃ r : ℝ, wiArg m c i = r) (f2 : ∀ i, ∃ r : ℝ, biArg m c i = r)
    (f3 : ∀ i, ∃ r : ℝ, whArg m c i = r) (f4 : ∀ i, ∃ r : ℝ, bhArg m c i = r) :
    HostTail.hidden m c
      = Cert.ReferenceIdeal.Read.val_main_v9 (F := Ideal) (xArg m c) (wiArg m c) (biArg m c) (whArg m c) (bhArg m c) := by
  funext i
  obtain ⟨b, t, h, rfl⟩ : ∃ (b : Fin 16) (t : Fin 4096) (h : Fin 256), i = ix3 b t h := ⟨i 0, i 1, i 2, eq_ix3 i⟩
  rw [hidden_at, Cert.ReferenceIdeal.RefAt.hidden_at]
  exact congrArg Ideal.tanh (Cert.SumLaw.fused_eq_split (fun k => xArg m c (ix3 b t k)) (fun k => wiArg m c (ix2 h k))
    (fun k => whArg m c (ix2 h k)) (biArg m c (ix1 h)) (bhArg m c (ix1 h))
    (fun _ => f0 _) (fun _ => f1 _) (fun _ => f3 _) (f2 _) (f4 _))

/-- THE KERNEL PROGRAM'S RUN, READ: every weakly fair execution terminates with the first result at the hidden states,
    the second at their last step, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v7) = HostTail.hidden m c
      ∧ r.2.mem ((c.tc : Thread nD τ).loc main_v9) = lastStep (HostTail.hidden m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v7 (Pipeline.mem_restRefs_of main_v7 (by decide) (by decide))).trans (hidden_eq m c),
      ((h c).2 main_v9 (Pipeline.mem_restRefs_of main_v9 (by decide) (by decide))).trans (last_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hidden

end
-- ==== Proof.FiniteInputs.lean ====
/-
  What the precondition says, entry by entry: every entry of each of the five argument arrays is a real number.

  The printed precondition is the conjunction of five tests, one per argument: `|a| < +∞` at every entry, all of them
  together by a reduction with `and`. If the whole is the bit 1 then each test is 1 at every entry, so no entry is
  `+∞` or `−∞`.
-/
import proofs.«113763_j1331439861945_1_alg».proof.Pre_finite_inputs
import proofs.«113763_j1331439861945_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic Idealize.ShloMosaic.ValueIdx Cert.Pre_finite_inputs Cert.Pre_finite_inputs.Gen

instance : Subsingleton S_.Idx := ⟨fun a b => funext fun d => d.elim0⟩

/-- An extended real whose absolute value is below `+∞` (as the exact instance compares them) is a real number. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = r := by
  induction x using EReal.rec with
  | bot => exfalso; revert h; simp [Ideal.ofBits, Ideal.ieee, Ideal.cmpf_def, Ideal.absf_def, Ideal.cmp]
  | top => exfalso; revert h; simp [Ideal.ofBits, Ideal.ieee, Ideal.cmpf_def, Ideal.absf_def, Ideal.cmp]
  | coe r => exact ⟨r, rfl⟩

/-- A conjunction of two bits that is 1 has both bits 1. -/
theorem both_one (x y : IVec S_ 1) (h : andi x y ix0 = 1#1) : x ix0 = 1#1 ∧ y ix0 = 1#1 :=
  IntOp.andi_eq_one.1 h

/-- One argument's test: if `|a| < +∞` holds at every entry (the reduction by `and` is 1), every entry of `a` is
    a real number. -/
theorem real_of_test {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
        (constantI S_ 1 1#1) hr hu ix0 = 1#1) (i : s.Idx) : ∃ r : ℝ, a i = r :=
  real_of_abs_lt_top (a i) (Host.reduce_andi_all _ _ hr hu ix0 e i)

/-- THE PRECONDITION, READ: if the printed predicate of the five arrays is the bit 1, every entry of each is real. -/
theorem all_real (a0 : FVec Ideal S16x4096x256 .f32) (a1 : FVec Ideal S256x256 .f32) (a2 : FVec Ideal S256 .f32)
    (a3 : FVec Ideal S256x256 .f32) (a4 : FVec Ideal S256 .f32)
    (h : fn (F := Ideal) a0 a1 a2 a3 a4 = fun _ => 1#1) :
    (∀ i, ∃ r : ℝ, a0 i = r) ∧ (∀ i, ∃ r : ℝ, a1 i = r) ∧ (∀ i, ∃ r : ℝ, a2 i = r)
      ∧ (∀ i, ∃ r : ℝ, a3 i = r) ∧ (∀ i, ∃ r : ℝ, a4 i = r) := by
  have h0 := congrFun h ix0
  dsimp only [fn, fn_part1] at h0
  obtain ⟨h0123, e4⟩ := both_one _ _ h0
  obtain ⟨h012, e3⟩ := both_one _ _ h0123
  obtain ⟨h01, e2⟩ := both_one _ _ h012
  obtain ⟨e0, e1⟩ := both_one _ _ h01
  exact ⟨real_of_test a0 _ _ _ e0, real_of_test a1 _ _ _ e1, real_of_test a2 _ _ _ e2,
    real_of_test a3 _ _ _ e3, real_of_test a4 _ _ _ e4⟩

end Cert.FiniteInputs

end
-- ==== Proof.lean ====
/-
  The certificate: a fused recurrent cell without recurrence, against its two-contraction reference.

  The reference computes, for every batch `b`, step `t` and unit `h`,
      hidden[b, t, h] = tanh (x[b, t, :] · Wi[h, :] + bi[h] + x[b, t, :] · Wh[h, :] + bh[h]),
  and returns the hidden states together with their last step `hidden[:, 4095, :]`. The kernel program adds the two
  weight matrices and the two bias vectors on the host, lays `x` out as 65536 rows, and runs one pipelined region over
  64 blocks of 1024 rows, each block computing `tanh (rows · (Wi + Wh)ᵀ + (bi + bh))`; the host then lays the rows out
  as 16 × 4096 × 256 and takes the last step.

  At the exact instance the narrowing of the matrix unit's operands is the identity and its product is the plain sum, so
  the two programs differ by one law: a contraction against a sum of weights is the sum of the contractions, and the
  biases may be added in either grouping. That law fails at the infinities, so it is used where every entry is real,
  which the precondition gives (Proof/FiniteInputs.lean, Proof/SumLaw.lean).

  The modules: Proof/BodyAt.lean (what the body stores, at an entry), Proof/EntryArrays.lean (the arrays the region
  finds), Proof/OutputArray.lean (the region's output after the run: the blocks tile it), Proof/HostTail.lean (the two
  results), Proof/ReferenceAt.lean (the reference at an entry), Proof/Hidden.lean (the two hidden states are equal; the
  kernel program's run with its results named). The frames of the two kernel programs and the reference's run are the
  generated ones; the ideal pass rewrote nothing, so its conjunct is `True`.
-/
import proofs.«113763_j1331439861945_1_alg».proof.Defs
import proofs.«113763_j1331439861945_1_alg».proof.Proof.Gen.Kernel
import proofs.«113763_j1331439861945_1_alg».proof.Proof.Gen.Kernel.Skeleton
import proofs.«113763_j1331439861945_1_alg».proof.Proof.Gen.Kernel.Launch
import proofs.«113763_j1331439861945_1_alg».proof.Proof.Gen.Kernel.Points
import proofs.«113763_j1331439861945_1_alg».proof.Proof.Gen.Kernel.Frame
import proofs.«113763_j1331439861945_1_alg».proof.Proof.Gen.KernelIdeal
import proofs.«113763_j1331439861945_1_alg».proof.Proof.Gen.KernelIdeal.Skeleton
import proofs.«113763_j1331439861945_1_alg».proof.Proof.Gen.KernelIdeal.Launch
import proofs.«113763_j1331439861945_1_alg».proof.Proof.Gen.KernelIdeal.Points
import proofs.«113763_j1331439861945_1_alg».proof.Proof.Gen.KernelIdeal.Frame
import proofs.«113763_j1331439861945_1_alg».proof.Proof.Gen.ReferenceIdeal
import proofs.«113763_j1331439861945_1_alg».proof.Proof.Gen.Pre_finite_inputs
import proofs.«113763_j1331439861945_1_alg».proof.Proof.Gen.ReferenceIdeal.Run
import proofs.«113763_j1331439861945_1_alg».proof.Proof.Gen.ReferenceIdeal.Read
import proofs.«113763_j1331439861945_1_alg».proof.Proof.Hidden
import proofs.«113763_j1331439861945_1_alg».proof.Proof.FiniteInputs
import Idealize.ShloMosaic.Adequacy
import Idealize.ShloMosaic.Init

set_option maxRecDepth 16384

noncomputable section

namespace Cert.Proof

open Idealize.ShloMosaic Idealize.SL.Sem

/-- The word-level kernel program terminates without a fault and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the five arguments, all of them real by the precondition, both programs end with the
    same hidden states and the same last step: the kernel program's are `Hidden.run`'s, the reference's its generated
    run's, and the two hidden states are equal by `Hidden.hidden_is_reference`; the last step is the same two
    operations on both sides. -/
theorem algebraic : Cert.algebraic_KernelIdeal_ReferenceIdeal := by
  intro m ρ m' ρ' hpre hagree
  refine ⟨fun c => Cert.KernelIdeal.HostTail.hidden m c,
    fun c => Cert.KernelIdeal.HostTail.lastStep (Cert.KernelIdeal.HostTail.hidden m c),
    Cert.KernelIdeal.Hidden.run m ρ, ?_⟩
  refine (θ_run Cert.ReferenceIdeal.defs _ _).mono (fun _ h c => ?_) (Cert.ReferenceIdeal.Value.run (F := Ideal) m' ρ')
  obtain ⟨f0, f1, f2, f3, f4⟩ := Cert.FiniteInputs.all_real _ _ _ _ _ (hpre c)
  have hb := Cert.KernelIdeal.Hidden.hidden_is_reference m c f0 f1 f2 f3 f4
  obtain ⟨a0, a1, a2, a3, a4⟩ := hagree c
  refine ⟨?_, ?_, (h c).2.2⟩
  · rw [(h c).1, a0, a1, a2, a3, a4]
    exact hb.symm
  · rw [(h c).2.1, a0, a1, a2, a3, a4]
    exact (congrArg Cert.KernelIdeal.HostTail.lastStep hb).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
